-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x4096 : Shape := ⟨2, ![8192, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S4096x4096 .f32) (main_arg1 : FVec F S8192x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S4096x4096 : Shape := ⟨2, ![4096, 4096]⟩
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x4096 : Shape := ⟨2, ![512, 4096]⟩
abbrev S1024x4096 : Shape := ⟨2, ![1024, 4096]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 21
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S1x8192, .f32⟩
  | .hbm, ⟨18, _⟩ => ⟨S4096x4096, .bf16⟩
  | .hbm, ⟨19, _⟩ => ⟨S8192x4096, .bf16⟩
  | .hbm, ⟨20, _⟩ => ⟨S4096x8192, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S8192x4096_S8192_d1 : S8192x4096.ReducesTo [1] S8192
  bcast_S_S8192 : S_.BroadcastsInDim S8192 (![] : Fin 0 → Fin S8192.rank)
  shapeCasts_S8192_S1x8192 : S8192.ShapeCasts S1x8192
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .bf16 = 32 ∨ (Rect.block (s := S8192x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v7) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S8192 : Shape := ⟨1, ![8192]⟩
abbrev S4096x8192 : Shape := ⟨2, ![4096, 8192]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S4096x8192, .f32⟩
  | .hbm, ⟨18, _⟩ => ⟨S1x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S8192x4096_S8192_d1 : S8192x4096.ReducesTo [1] S8192
  bcast_S_S8192 : S_.BroadcastsInDim S8192 (![] : Fin 0 → Fin S8192.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  dot_S4096x4096_S8192x4096_S4096x8192_1_1_0_0_n_n_wf : DotDims.WF S4096x4096 S8192x4096 S4096x8192 [1] [1] [0] [0] [] []

variable [Facts₀]

def dot_S4096x4096_S8192x4096_S4096x8192_1_1_0_0_n_n : DotDims S4096x4096 S8192x4096 S4096x8192 where
  lhsContracting := [1]
  rhsContracting := [1]
  lhsNonContracting := [0]
  rhsNonContracting := [0]
  lhsBatch := []
  rhsBatch := []
  wf := dot_S4096x4096_S8192x4096_S4096x8192_1_1_0_0_n_n_wf

class Facts : Prop extends Facts₀ where

variable [Facts]
-- ==== Proof.Spec.lean ====
/-
  The function both programs compute. For a matrix x of 4096 rows and a matrix w of 8192 rows, both of length-4096
  rows, entry (b, o) of the result is the inner product of row b of x with row o of w, divided by the product of the
  two rows' clamped lengths: the length of a row is the square root of the sum of its squares, clamped from below by
  a fixed small positive constant. Everything is read on the extended reals.

  The clamped lengths are kept as the two stages that compute them (a column of 4096 entries for x, a vector of 8192
  entries for w); nothing below opens the square root or the maximum, because both programs compute them by the same
  operations of the same arguments. What is opened is the inner product (a sum over the shared axis) and the places
  at which the two clamped lengths are read.
-/
import proofs.«134023_j86062554677874_1_alg».proof.Proof.Gen.ReferenceIdeal.Read

noncomputable section

namespace Cert.Cosine

open Idealize.ShloMosaic Cert.ReferenceIdeal Cert.ReferenceIdeal.Read

/-- The clamped row lengths of x, as a column: entry (b, 0) is max (sqrt (sum of squares of row b)) eps. -/
abbrev xScale (x : (⟨S4096x4096, .f32⟩ : BufTy).Contents (Elt Ideal)) : (⟨S4096x1, .f32⟩ : BufTy).Contents (Elt Ideal) :=
  val_main_v2 (F := Ideal) x

/-- The clamped row lengths of w, as a vector: entry o is max (sqrt (sum of squares of row o)) eps. -/
abbrev wScale (w : (⟨S8192x4096, .f32⟩ : BufTy).Contents (Elt Ideal)) : (⟨S8192, .f32⟩ : BufTy).Contents (Elt Ideal) :=
  val_main_v5 (F := Ideal) w

/-- Row b, column k of a 4096 x 4096 array. -/
abbrev xAt (b k : Fin 4096) : S4096x4096.Idx := fun a => match a with
  | ⟨0, _⟩ => b
  | ⟨1, _⟩ => k

/-- Row o, column k of an 8192 x 4096 array. -/
abbrev wAt (o : Fin 8192) (k : Fin 4096) : S8192x4096.Idx := fun a => match a with
  | ⟨0, _⟩ => o
  | ⟨1, _⟩ => k

/-- Entry (b, 0) of a 4096 x 1 column. -/
abbrev colAt (b : Fin 4096) : S4096x1.Idx := fun a => match a with
  | ⟨0, _⟩ => b
  | ⟨1, _⟩ => ⟨0, Nat.one_pos⟩

/-- Entry o of a vector of 8192. -/
abbrev vecAt (o : Fin 8192) : S8192.Idx := fun a => match a with
  | ⟨0, _⟩ => o

/-- The cosine similarity of row b of x and row o of w: their inner product over the product of their clamped lengths. -/
def cosine (x : (⟨S4096x4096, .f32⟩ : BufTy).Contents (Elt Ideal)) (w : (⟨S8192x4096, .f32⟩ : BufTy).Contents (Elt Ideal)) :
    (⟨S4096x8192, .f32⟩ : BufTy).Contents (Elt Ideal) :=
  fun i => Ideal.div (∑ k : Fin 4096, x (xAt (i 0) k) * w (wAt (i 1) k)) (xScale x (colAt (i 0)) * wScale w (vecAt (i 1)))

/-- The reference's last stage is that function: its matrix product is the sum over the shared axis, and the two
    broadcasts read the column at the row index and the vector at the column index. -/
theorem reference_eq (x : (⟨S4096x4096, .f32⟩ : BufTy).Contents (Elt Ideal)) (w : (⟨S8192x4096, .f32⟩ : BufTy).Contents (Elt Ideal)) :
    val_main_v11 (F := Ideal) x w = cosine x w := by
  funext i
  have e8 : idx_main_v8 i = colAt (i 0) := funext fun a => Fin.ext (by match a with | ⟨0, _⟩ => rfl | ⟨1, _⟩ => rfl)
  have e7 : idx_main_v7 (idx_main_v9 i) = vecAt (i 1) := funext fun a => Fin.ext (by match a with | ⟨0, _⟩ => rfl)
  have el : ∀ k, lidx_main_v6 i k = xAt (i 0) k := fun k => funext fun a => Fin.ext (by match a with | ⟨0, _⟩ => rfl | ⟨1, _⟩ => rfl)
  have er : ∀ k, ridx_main_v6 i k = wAt (i 1) k := fun k => funext fun a => Fin.ext (by match a with | ⟨0, _⟩ => rfl | ⟨1, _⟩ => rfl)
  rw [val_main_v11_apply, val_main_v6_apply, val_main_v10_apply, val_main_v8_apply, val_main_v9_apply, val_main_v7_apply, e8, e7]
  simp only [el, er]
  rfl

end Cert.Cosine

end
-- ==== Proof.Payload.lean ====
/-
  What the kernel body stores, read at one entry of its 512 x 1024 output block. The body multiplies a block of 512
  rows of x by a block of 1024 rows of w over their shared axis of 4096 (a matrix product into a zero accumulator),
  and divides entry (a, b) by the product of entry (a, 0) of a 512 x 1 column and entry (0, b) of a 1 x 1024 row.
  On the extended reals the matrix product into zero is the plain sum over the shared axis, and the two broadcasts
  read the column at the row index and the row at the column index.
-/
import proofs.«134023_j86062554677874_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Cosine

open Idealize.ShloMosaic Cert.KernelIdeal Cert.KernelIdeal.Gen

/-- Row a, column k of the 512 x 4096 block of x. -/
abbrev xbAt (a : Fin 512) (k : Fin 4096) : S512x4096.Idx := fun d => match d with
  | ⟨0, _⟩ => a
  | ⟨1, _⟩ => k

/-- Row b, column k of the 1024 x 4096 block of w. -/
abbrev wbAt (b : Fin 1024) (k : Fin 4096) : S1024x4096.Idx := fun d => match d with
  | ⟨0, _⟩ => b
  | ⟨1, _⟩ => k

/-- Entry (a, 0) of the 512 x 1 column block. -/
abbrev colbAt (a : Fin 512) : S512x1.Idx := fun d => match d with
  | ⟨0, _⟩ => a
  | ⟨1, _⟩ => ⟨0, Nat.one_pos⟩

/-- Entry (0, b) of the 1 x 1024 row block. -/
abbrev rowbAt (b : Fin 1024) : S1x1024.Idx := fun d => match d with
  | ⟨0, _⟩ => ⟨0, Nat.one_pos⟩
  | ⟨1, _⟩ => b

/-! ## The product's operand indices, axis by axis -/

theorem lhs_axis0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_axis1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_axis0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_axis1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The block product into the zero accumulator, at entry (a, b): the sum over k of (row a of the x block) times
    (row b of the w block). -/
theorem blockProduct_apply (l : FVec Ideal S512x4096 .bf16) (r : FVec Ideal S1024x4096 .bf16) (j : S512x1024.Idx) :
    matmul dot_S512x4096_S1024x4096_S512x1024_1_1_0_0_n_n none l r (constant S512x1024 .f32 0x00000000#32) j
      = ∑ k : Fin 4096, l (xbAt (j 0) k) * r (wbAt (j 1) k) := by
  show FloatOps.matmul dot_S512x4096_S1024x4096_S512x1024_1_1_0_0_n_n none l r (constant S512x1024 .f32 0x00000000#32) j = _
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx j ((ValueIdx.contrEquiv1 dot_S512x4096_S1024x4096_S512x1024_1_1_0_0_n_n 4096 rfl rfl).symm k) = xbAt (j 0) k := funext fun a => Fin.ext (by
    match a with
    | ⟨0, _⟩ => exact lhs_axis0 _ _
    | ⟨1, _⟩ => exact (lhs_axis1 _ _).trans hk)
  have er : dot_S512x4096_S1024x4096_S512x1024_1_1_0_0_n_n.rhsIdx j ((ValueIdx.contrEquiv1 dot_S512x4096_S1024x4096_S512x1024_1_1_0_0_n_n 4096 rfl rfl).symm k) = wbAt (j 1) k := funext fun a => Fin.ext (by
    match a with
    | ⟨0, _⟩ => exact rhs_axis0 _ _
    | ⟨1, _⟩ => exact (rhs_axis1 _ _).trans hk)
  rw [el, er]

/-- The column block spread over the 1024 columns, at entry (a, b): the column at (a, 0). -/
theorem spreadColumn_apply (v : FVec Ideal S512x1 .f32) (j : S512x1024.Idx) :
    broadcastTo S512x1024 v broadcasts_S512x1_S512x1024 j = v (colbAt (j 0)) :=
  broadcastTo_apply v broadcasts_S512x1_S512x1024 j (colbAt (j 0)) (fun a => match a with
    | ⟨0, _⟩ => by show (j 0).val = if (512 : Nat) = 1 then 0 else (j 0).val; rw [if_neg (by decide)]
    | ⟨1, _⟩ => by show 0 = if (1 : Nat) = 1 then 0 else (j 1).val; rw [if_pos rfl])

/-- The row block spread over the 512 rows, at entry (a, b): the row at (0, b). -/
theorem spreadRow_apply (v : FVec Ideal S1x1024 .f32) (j : S512x1024.Idx) :
    broadcastTo S512x1024 v broadcasts_S1x1024_S512x1024 j = v (rowbAt (j 1)) :=
  broadcastTo_apply v broadcasts_S1x1024_S512x1024 j (rowbAt (j 1)) (fun a => match a with
    | ⟨0, _⟩ => by show 0 = if (1 : Nat) = 1 then 0 else (j 0).val; rw [if_pos rfl]
    | ⟨1, _⟩ => by show (j 1).val = if (1024 : Nat) = 1 then 0 else (j 1).val; rw [if_neg (by decide)])

/-- THE STORED VALUE at entry (a, b) of the output block: the inner product of row a of the x block with row b of the
    w block, over the product of the column's entry (a, 0) and the row's entry (0, b). -/
theorem payload_apply (v0 : Vec Ideal S512x4096 .bf16) (v2 : Vec Ideal S1024x4096 .bf16) (v5 : Vec Ideal S512x1 .f32) (v7 : Vec Ideal S1x1024 .f32)
    (j : S512x1024.Idx) :
    k0_pay1 (F := Ideal) v0 v2 v5 v7 j
      = Ideal.div (∑ k : Fin 4096, v0 (xbAt (j 0) k) * v2 (wbAt (j 1) k)) (v5 (colbAt (j 0)) * v7 (rowbAt (j 1))) := by
  unfold k0_pay1
  show FloatOps.divf (F := Ideal)
      (matmul (F := Ideal) dot_S512x4096_S1024x4096_S512x1024_1_1_0_0_n_n none (shapeCast S512x4096 v0 shapeCasts_S512x4096_S512x4096)
        (shapeCast S1024x4096 v2 shapeCasts_S1024x4096_S1024x4096) (constant S512x1024 .f32 0x00000000#32) j)
      (FloatOps.mulf (F := Ideal) (broadcastTo S512x1024 (shapeCast S512x1 v5 shapeCasts_S512x1_S512x1) broadcasts_S512x1_S512x1024 j)
        (broadcastTo S512x1024 (shapeCast S1x1024 v7 shapeCasts_S1x1024_S1x1024) broadcasts_S1x1024_S512x1024 j)) = _
  rw [blockProduct_apply, spreadColumn_apply, spreadRow_apply, shapeCast_self, shapeCast_self, shapeCast_self, shapeCast_self]
  rfl

end Cert.KernelIdeal.Cosine

end
-- ==== Proof.HostPrefix.lean ====
/-
  What the kernel's region finds in the four arrays it stages, as functions of the two arguments. Before the region
  the program computes, with the same operations as the reference, the column of clamped row lengths of x and the
  vector of clamped row lengths of w; it reshapes the vector into a 1 x 8192 row; and it converts x and w to a
  narrower float format, which on the extended reals changes nothing. So the region finds: x itself, w itself, the
  column of clamped lengths of x, and the clamped lengths of w laid out as one row.
-/
import proofs.«134023_j86062554677874_1_alg».proof.Proof.Gen.KernelIdeal.Frame
import proofs.«134023_j86062554677874_1_alg».proof.Proof.Spec
import Idealize.ShloMosaic.Lib.StableHlo.Run
import Idealize.ShloMosaic.Lib.Pipeline.Value

noncomputable section

namespace Cert.KernelIdeal.Cosine

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- The converted copy of x the region stages is x: a change of float format is the identity on the extended reals. -/
theorem staged_x (c : Dev nD) : (V m c main_v7 : S4096x4096.Idx → EReal) = m ((c : Thread nD τ).loc main_arg0) := by
  dsimp only [Gen.V]
  simp only [Gen.hostOps0, Gen.hostOps0_1, Gen.hostOps0_2, Gen.hostOps0_3, List.flatten_cons, List.flatten_nil, List.append_nil, List.cons_append, List.nil_append]
  after_results
  rfl

/-- The converted copy of w the region stages is w. -/
theorem staged_w (c : Dev nD) : (V m c main_v8 : S8192x4096.Idx → EReal) = m ((c : Thread nD τ).loc main_arg1) := by
  dsimp only [Gen.V]
  simp only [Gen.hostOps0, Gen.hostOps0_1, Gen.hostOps0_2, Gen.hostOps0_3, List.flatten_cons, List.flatten_nil, List.append_nil, List.cons_append, List.nil_append]
  after_results
  rfl

/-- The column the region stages holds the clamped row lengths of x: the same operations of x as the specification's. -/
theorem staged_xScale (c : Dev nD) :
    (V m c main_v2 : S4096x1.Idx → EReal) = Cert.Cosine.xScale (m ((c : Thread nD τ).loc main_arg0)) := by
  dsimp only [Gen.V]
  simp only [Gen.hostOps0, Gen.hostOps0_1, Gen.hostOps0_2, Gen.hostOps0_3, List.flatten_cons, List.flatten_nil, List.append_nil, List.cons_append, List.nil_append]
  after_results
  rfl

/-- The row the region stages holds the clamped row lengths of w, reshaped from a vector of 8192 into 1 x 8192. -/
theorem staged_wScaleRow (c : Dev nD) :
    (V m c main_v6 : S1x8192.Idx → EReal)
      = shapeCast S1x8192 (Cert.Cosine.wScale (m ((c : Thread nD τ).loc main_arg1))) shapeCasts_S8192_S1x8192 := by
  dsimp only [Gen.V]
  simp only [Gen.hostOps0, Gen.hostOps0_1, Gen.hostOps0_2, Gen.hostOps0_3, List.flatten_cons, List.flatten_nil, List.append_nil, List.cons_append, List.nil_append]
  after_results
  rfl

/-- A vector of 8192 reshaped into one row, read at (0, o): the vector at o (both have row-major position o). -/
theorem rowOfVector_apply (y : S8192.Idx → EReal) (i : S1x8192.Idx) :
    shapeCast S1x8192 y shapeCasts_S8192_S1x8192 i = y (Cert.Cosine.vecAt (i 1)) := by
  refine shapeCast_apply y shapeCasts_S8192_S1x8192 i (Cert.Cosine.vecAt (i 1)) ?_
  rw [Shape.rowMajor_val_one, Shape.rowMajor_val_two]
  show (i 1).val = (i 0).val * 8192 + (i 1).val
  have h0 : (i 0).val < 1 := (i 0).isLt
  omega

/-- So the staged row at (0, o) is the clamped length of row o of w. -/
theorem staged_wScaleRow_apply (c : Dev nD) (i : S1x8192.Idx) :
    (V m c main_v6 : S1x8192.Idx → EReal) i = Cert.Cosine.wScale (m ((c : Thread nD τ).loc main_arg1)) (Cert.Cosine.vecAt (i 1)) := by
  rw [staged_wScaleRow]
  exact rowOfVector_apply _ i

end Cert.KernelIdeal.Cosine

end
-- ==== Proof.Blocks.lean ====
/-
  From blocks to the whole array. The output is tiled by 8 x 8 blocks of 512 rows and 1024 columns; the grid point
  whose output block has block-row p and block-column q works on rows 512 p .. 512 p + 511 of x (and of the column of
  clamped lengths) and on rows 1024 q .. 1024 q + 1023 of w (and on those columns of the row of clamped lengths).
  So what a point writes back is exactly its block of the cosine-similarity matrix of the two whole arguments; the 64
  blocks cover the 4096 x 8192 result; hence the result array ends holding that matrix.
-/
import proofs.«134023_j86062554677874_1_alg».proof.Proof.Gen.KernelIdeal.Value
import proofs.«134023_j86062554677874_1_alg».proof.Proof.Spec
import proofs.«134023_j86062554677874_1_alg».proof.Proof.Payload
import proofs.«134023_j86062554677874_1_alg».proof.Proof.HostPrefix

noncomputable section

namespace Cert.KernelIdeal.Cosine

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- One entry: if the four loaded blocks, at the places the stored value reads them, hold the entries of x, of w and
    of the two clamped lengths that entry i of the matrix is made of, the stored value at j is that entry. -/
theorem entry_eq (x : S4096x4096.Idx → EReal) (w : S8192x4096.Idx → EReal)
    (v0 : Vec Ideal S512x4096 .bf16) (v2 : Vec Ideal S1024x4096 .bf16) (v5 : Vec Ideal S512x1 .f32) (v7 : Vec Ideal S1x1024 .f32)
    (j : S512x1024.Idx) (i : S4096x8192.Idx)
    (h0 : ∀ k : Fin 4096, v0 (xbAt (j 0) k) = x (Cert.Cosine.xAt (i 0) k))
    (h1 : ∀ k : Fin 4096, v2 (wbAt (j 1) k) = w (Cert.Cosine.wAt (i 1) k))
    (h2 : v5 (colbAt (j 0)) = Cert.Cosine.xScale x (Cert.Cosine.colAt (i 0)))
    (h3 : v7 (rowbAt (j 1)) = Cert.Cosine.wScale w (Cert.Cosine.vecAt (i 1))) :
    k0_pay1 (F := Ideal) v0 v2 v5 v7 j = Cert.Cosine.cosine x w i := by
  rw [payload_apply, h2, h3]
  unfold Cert.Cosine.cosine
  exact congrArg (fun s => Ideal.div s _) (Finset.sum_congr rfl fun k _ => by rw [h0 k, h1 k])

/-- The printed index maps, decided over the 64 grid points: the blocks of x and of the column move with the output's
    block-row, the blocks of w and of the row with its block-column, each at block-column (block-row) zero otherwise;
    and the output's block indices stay below 8. -/
theorem index_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 x 8 output blocks is some grid point's. -/
theorem index_onto : ∀ (p : Fin 8) (q : Fin 8), ∃ t : Fin cfg0.N, win0_4.index t = ![p.val, q.val] :=
  (by decide +kernel : ∀ (p : Fin 8) (q : Fin 8), ∃ t : Fin grid0.N, win0_4.index t = ![p.val, q.val])

/-- WHAT POINT t WRITES BACK is its block of the cosine-similarity matrix of the two arguments. -/
theorem flushed_eq (c : Dev nD) (t : Fin cfg0.N) :
    (dats m 0 c).flushed 4 t = ((cfg0.win 4).blk t).view.read (Elt Ideal)
      (Cert.Cosine.cosine (m ((c : Thread nD τ).loc main_arg0)) (m ((c : Thread nD τ).loc main_arg1))) := by
  rw [Cert.KernelIdeal.Value.flushed4]
  unfold out0_4
  rw [View.canon_unit_zero origin]
  simp only [View.ld_unit_zero (S := S512x4096) origin, View.ld_unit_zero (S := S1024x4096) origin,
    View.ld_unit_zero (S := S512x1) origin, View.ld_unit_zero (S := S1x1024) origin]
  obtain ⟨e0, e1, e2, e3, e4, e5, e6, e7, e8, e9⟩ := index_facts t
  funext j
  show k0_pay1 (F := Ideal) (iblk m c 0 t) (iblk m c 1 t) (iblk m c 2 t) (iblk m c 3 t) j
    = Cert.Cosine.cosine (m ((c : Thread nD τ).loc main_arg0)) (m ((c : Thread nD τ).loc main_arg1)) (((cfg0.win 4).blk t).view.emb j)
  refine entry_eq (m ((c : Thread nD τ).loc main_arg0)) (m ((c : Thread nD τ).loc main_arg1))
    (iblk m c 0 t) (iblk m c 1 t) (iblk m c 2 t) (iblk m c 3 t) j (((cfg0.win 4).blk t).view.emb j) ?_ ?_ ?_ ?_
  · intro k
    show (V m c main_v7 : S4096x4096.Idx → EReal) (((cfg0.win 0).blk t).view.emb (xbAt (j 0) k)) = _
    rw [staged_x]
    refine congrArg (m ((c : Thread nD τ).loc main_arg0)) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 4096 + 1 * k.val = k.val; omega
  · intro k
    show (V m c main_v8 : S8192x4096.Idx → EReal) (((cfg0.win 1).blk t).view.emb (wbAt (j 1) k)) = _
    rw [staged_w]
    refine congrArg (m ((c : Thread nD τ).loc main_arg1)) (funext fun a => Fin.ext ?_)
    match a with
    | ⟨0, _⟩ => show win0_1.index t (0 : Fin 2) * 1024 + 1 * (j 1).val = win0_4.index t (1 : Fin 2) * 1024 + 1 * (j 1).val; omega
    | ⟨1, _⟩ => show win0_1.index t (1 : Fin 2) * 4096 + 1 * k.val = k.val; omega
  · show (V m c main_v2 : S4096x1.Idx → EReal) (((cfg0.win 2).blk t).view.emb (colbAt (j 0))) = _
    rw [staged_xScale]
    refine congrArg (Cert.Cosine.xScale (m ((c : Thread nD τ).loc main_arg0))) (funext fun a => Fin.ext ?_)
    match a with
    | ⟨0, _⟩ => show win0_2.index t (0 : Fin 2) * 512 + 1 * (j 0).val = win0_4.index t (0 : Fin 2) * 512 + 1 * (j 0).val; omega
    | ⟨1, _⟩ => show win0_2.index t (1 : Fin 2) * 1 + 1 * 0 = 0; omega
  · show (V m c main_v6 : S1x8192.Idx → EReal) (((cfg0.win 3).blk t).view.emb (rowbAt (j 1))) = _
    rw [staged_wScaleRow_apply]
    refine congrArg (Cert.Cosine.wScale (m ((c : Thread nD τ).loc main_arg1))) (funext fun a => Fin.ext ?_)
    match a with
    | ⟨0, _⟩ => show win0_3.index t (1 : Fin 2) * 1024 + 1 * (j 1).val = win0_4.index t (1 : Fin 2) * 1024 + 1 * (j 1).val; omega

/-- An entry of the result is in point t's block iff each coordinate is in the block's range on its axis. -/
theorem mem_block (t : Fin cfg0.N) (i : S4096x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v9).slice (win0_4.rect t)).set ↔ _
  rw [View.set_slice_whole, Rect.mem_set_unit]
  exact Iff.rfl

/-- The 64 blocks cover the result: entry (r, s) is in the block with block-row r / 512 and block-column s / 1024. -/
theorem covered (i : S4096x8192.Idx) : ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := index_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE RESULT ARRAY after the run is the cosine-similarity matrix of the two arguments. -/
theorem final (c : Dev nD) : (dats m 0 c).arrAt 4 cfg0.N
    = Cert.Cosine.cosine (m ((c : Thread nD τ).loc main_arg0)) (m ((c : Thread nD τ).loc main_arg1)) :=
  (dats m 0 c).arrAt_eq_of_cover 4 _ (fun t _ => flushed_eq m c t) covered

/-- The kernel's run: it ends, the result at the cosine-similarity matrix of the arguments, the arguments unchanged. -/
theorem run : θ_run defs (onTc (τ := τ) (main (F := Ideal))) ⟨m, fun _ => 0, ρ⟩ fun r => ∀ c : Dev nD,
      r.2.mem ((c : Thread nD τ).loc main_v9) = Cert.Cosine.cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Cosine

end
-- ==== Proof.lean ====
/-
  Cosine similarity of every row of x (4096 rows) with every row of w (8192 rows), rows of length 4096:
  entry (b, o) = <x_b, w_o> / (max(|x_b|, eps) * max(|w_o|, eps)), on the extended reals.

  The kernel computes the two vectors of clamped row lengths ahead of its one tiled region, with the same operations
  as the reference; the region then forms, per 512 x 1024 output block, the block matrix product over the whole shared
  axis and divides it by the outer product of the block's piece of the column of clamped lengths of x and its piece of
  the row of clamped lengths of w. The reference forms the whole matrix product and divides by the whole outer product.
  Entry by entry both are the same quotient of the same sum by the same product, so no algebraic law beyond reading
  each side at an entry is needed, and the finiteness of the inputs is never used: a change of float format is the
  identity on the extended reals, a matrix product into a zero accumulator is the plain sum over the shared axis,
  and the 64 blocks tile the result.

  Spec.lean states the function and shows the reference computes it; Payload.lean reads the kernel body's stored value
  at an entry; HostPrefix.lean says what the region finds in the arrays it stages; Blocks.lean goes from the blocks
  the grid points write back to the whole result array. The frames and the reference's run are the generated ones.
-/
import proofs.«134023_j86062554677874_1_alg».proof.Defs
import proofs.«134023_j86062554677874_1_alg».proof.Proof.Gen.Kernel
import proofs.«134023_j86062554677874_1_alg».proof.Proof.Gen.Kernel.Skeleton
import proofs.«134023_j86062554677874_1_alg».proof.Proof.Gen.Kernel.Launch
import proofs.«134023_j86062554677874_1_alg».proof.Proof.Gen.Kernel.Points
import proofs.«134023_j86062554677874_1_alg».proof.Proof.Gen.Kernel.Frame
import proofs.«134023_j86062554677874_1_alg».proof.Proof.Gen.KernelIdeal
import proofs.«134023_j86062554677874_1_alg».proof.Proof.Gen.KernelIdeal.Skeleton
import proofs.«134023_j86062554677874_1_alg».proof.Proof.Gen.KernelIdeal.Launch
import proofs.«134023_j86062554677874_1_alg».proof.Proof.Gen.KernelIdeal.Points
import proofs.«134023_j86062554677874_1_alg».proof.Proof.Gen.KernelIdeal.Frame
import proofs.«134023_j86062554677874_1_alg».proof.Proof.Gen.ReferenceIdeal
import proofs.«134023_j86062554677874_1_alg».proof.Proof.Gen.Pre_finite_inputs
import proofs.«134023_j86062554677874_1_alg».proof.Proof.Gen.KernelIdeal.Value
import proofs.«134023_j86062554677874_1_alg».proof.Proof.Gen.ReferenceIdeal.Run
import proofs.«134023_j86062554677874_1_alg».proof.Proof.Gen.ReferenceIdeal.Read
import proofs.«134023_j86062554677874_1_alg».proof.Proof.Spec
import proofs.«134023_j86062554677874_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and w, the kernel's result array and the reference's both end at the
    cosine-similarity matrix of x and w. -/
theorem algebraic : Cert.algebraic_KernelIdeal_ReferenceIdeal := by
  intro m ρ m' ρ' _ hagree
  refine ⟨fun c => Cert.Cosine.cosine (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Cosine.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
